-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024x128 : Shape := ⟨3, ![256, 1024, 128]⟩
abbrev S256x1024 : Shape := ⟨2, ![256, 1024]⟩
abbrev S128x128 : Shape := ⟨2, ![128, 128]⟩
abbrev S_ : Shape := ⟨0, ![]⟩

class Facts : Prop where
  bcast_S_S256x1024x128 : S_.BroadcastsInDim S256x1024x128 (![] : Fin 0 → Fin S256x1024x128.rank)
  reducesTo_S256x1024x128_S_d0_1_2 : S256x1024x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg2 : IVec S256x1024 32) (main_arg3 : IVec S256x1024 32) (main_v15 : IVec S_ 1) (main_c_5 : IVec S_ 32) : IVec S_ 1 :=
  let main_v16 : IVec S256x1024 32 := broadcastInDim S256x1024 ![] bcast_S_S256x1024 main_c_5
  let main_v17 : IVec S256x1024 1 := cmpi .sge main_arg2 main_v16
  let main_c_6 : IVec S_ 32 := constantI S_ 32 32#32
  let main_v18 : IVec S256x1024 32 := broadcastInDim S256x1024 ![] bcast_S_S256x1024 main_c_6
  let main_v19 : IVec S256x1024 1 := cmpi .slt main_arg2 main_v18
  let main_v20 : IVec S256x1024 1 := andi main_v17 main_v19
  let main_c_7 : IVec S_ 1 := constantI S_ 1 1#1
  let main_v21 : IVec S_ 1 := (fun x v => Host.reduce IntOp.andi x v reducesTo_S256x1024_S_d0_1 h_S_) main_v20 main_c_7
  let main_v22 : IVec S_ 1 := andi main_v15 main_v21
  let main_c_8 : IVec S_ 32 := constantI S_ 32 0#32
  let main_v23 : IVec S256x1024 32 := broadcastInDim S256x1024 ![] bcast_S_S256x1024 main_c_8
  let main_v24 : IVec S256x1024 1 := cmpi .sge main_arg3 main_v23
  let main_c_9 : IVec S_ 32 := constantI S_ 32 64#32
  let main_v25 : IVec S256x1024 32 := broadcastInDim S256x1024 ![] bcast_S_S256x1024 main_c_9
  let main_v26 : IVec S256x1024 1 := cmpi .slt main_arg3 main_v25
  let main_v27 : IVec S256x1024 1 := andi main_v24 main_v26
  let main_c_10 : IVec S_ 1 := constantI S_ 1 1#1
  let main_v28 : IVec S_ 1 := (fun x v => Host.reduce IntOp.andi x v reducesTo_S256x1024_S_d0_1 h_S_) main_v27 main_c_10
  let main_v29 : IVec S_ 1 := andi main_v22 main_v28
  main_v29

def fn {F : FTy → Type} [FloatOps F] (main_arg0 : FVec F S256x1024x128 .f32) (main_arg1 : IVec S256x1024 32) (main_arg2 : IVec S256x1024 32) (main_arg3 : IVec S256x1024 32) (main_arg4 : FVec F S128x128 .f32) : IVec S_ 1 :=
  let main_v0 : FVec F S256x1024x128 .f32 := Host.absf main_arg0
  let main_cst : FVec F S_ .f32 := constant S_ .f32 0x7F800000#32
  let main_v1 : FVec F S256x1024x128 .f32 := broadcastInDim S256x1024x128 ![] bcast_S_S256x1024x128 main_cst
  let main_v2 : IVec S256x1024x128 1 := cmpf .olt main_v0 main_v1
  let main_c : IVec S_ 1 := constantI S_ 1 1#1
  let main_v3 : IVec S_ 1 := (fun x v => Host.reduce IntOp.andi x v reducesTo_S256x1024x128_S_d0_1_2 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_c_2 : IVec S_ 32 := constantI S_ 32 0#32
  let main_v9 : IVec S256x1024 32 := broadcastInDim S256x1024 ![] bcast_S_S256x1024 main_c_2
  let main_v10 : IVec S256x1024 1 := cmpi .sge main_arg1 main_v9
  let main_c_3 : IVec S_ 32 := constantI S_ 32 32#32
  let main_v11 : IVec S256x1024 32 := broadcastInDim S256x1024 ![] bcast_S_S256x1024 main_c_3
  let main_v12 : IVec S256x1024 1 := cmpi .slt main_arg1 main_v11
  let main_v13 : IVec S256x1024 1 := andi main_v10 main_v12
  let main_c_4 : IVec S_ 1 := constantI S_ 1 1#1
  let main_v14 : IVec S_ 1 := (fun x v => Host.reduce IntOp.andi x v reducesTo_S256x1024_S_d0_1 h_S_) main_v13 main_c_4
  let main_v15 : IVec S_ 1 := andi main_v8 main_v14
  let main_c_5 : IVec S_ 32 := constantI S_ 32 0#32
  fn_part1 (F := F) main_arg2 main_arg3 main_v15 main_c_5
-- ==== Kernel.lean ====
abbrev S256x1024x128 : Shape := ⟨3, ![256, 1024, 128]⟩
abbrev S256x1024 : Shape := ⟨2, ![256, 1024]⟩
abbrev S128x128 : Shape := ⟨2, ![128, 128]⟩
abbrev S256x1024x256 : Shape := ⟨3, ![256, 1024, 256]⟩
abbrev S8x1024x128 : Shape := ⟨3, ![8, 1024, 128]⟩
abbrev S8x1024 : Shape := ⟨2, ![8, 1024]⟩
abbrev S8x1024x256 : Shape := ⟨3, ![8, 1024, 256]⟩
abbrev S8x1024x1 : Shape := ⟨3, ![8, 1024, 1]⟩
abbrev S8192x128 : Shape := ⟨2, ![8192, 128]⟩

abbrev nBuf : Space → Nat
  | .hbm => 6
  | .vmem => 11
  | .smem => 0
  | _ => 0

abbrev bufTy : (tb : Table) → Fin (tcTables nBuf tb) → BufTy
  | .hbm, ⟨0, _⟩ => ⟨S256x1024x128, .f32⟩
  | .hbm, ⟨1, _⟩ => ⟨S256x1024, .i32⟩
  | .hbm, ⟨2, _⟩ => ⟨S256x1024, .i32⟩
  | .hbm, ⟨3, _⟩ => ⟨S256x1024, .i32⟩
  | .hbm, ⟨4, _⟩ => ⟨S128x128, .f32⟩
  | .hbm, ⟨5, _⟩ => ⟨S256x1024x256, .f32⟩
  | .local _ .vmem, ⟨0, _⟩ => ⟨S8x1024x128, .f32⟩
  | .local _ .vmem, ⟨1, _⟩ => ⟨S8x1024x128, .f32⟩
  | .local _ .vmem, ⟨2, _⟩ => ⟨S8x1024, .i32⟩
  | .local _ .vmem, ⟨3, _⟩ => ⟨S8x1024, .i32⟩
  | .local _ .vmem, ⟨4, _⟩ => ⟨S8x1024, .i32⟩
  | .local _ .vmem, ⟨5, _⟩ => ⟨S8x1024, .i32⟩
  | .local _ .vmem, ⟨6, _⟩ => ⟨S8x1024, .i32⟩
  | .local _ .vmem, ⟨7, _⟩ => ⟨S8x1024, .i32⟩
  | .local _ .vmem, ⟨8, _⟩ => ⟨S128x128, .f32⟩
  | .local _ .vmem, ⟨9, _⟩ => ⟨S8x1024x256, .f32⟩
  | .local _ .vmem, ⟨10, _⟩ => ⟨S8x1024x256, .f32⟩
  | _, _ => ⟨S256x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S8x1024_S8x1024_0_0 : ∀ a, (![0, 0] : Fin 2 → Nat) a + S8x1024.size a ≤ S8x1024.size a
  h_S8x1024 : 0 < S8x1024.numel
  shapeCasts_S8x1024_S8x1024x1 : S8x1024.ShapeCasts S8x1024x1
  iota_S8x1024x128_d2_w32 : S8x1024x128.Iotas .tc 32 [2]
  broadcasts_S8x1024x1_S8x1024x128 : S8x1024x1.Broadcasts S8x1024x128
  natLt_1_32 : 1 < 32
  shapeCasts_S8x1024x128_S8192x128 : S8x1024x128.ShapeCasts S8192x128
  inb_S128x128_S128x128_0_0 : ∀ a, (![0, 0] : Fin 2 → Nat) a + S128x128.size a ≤ S128x128.size a
  h_S128x128 : 0 < S128x128.numel
  shapeCasts_S8192x128_S8x1024x128 : S8192x128.ShapeCasts S8x1024x128
  inb_S8x1024x128_S8x1024x128_0_0_0 : ∀ a, (![0, 0, 0] : Fin 3 → Nat) a + S8x1024x128.size a ≤ S8x1024x128.size a
  h_S8x1024x128 : 0 < S8x1024x128.numel
  inb_S8x1024x256_S8x1024x128_0_0_0 : ∀ a, (![0, 0, 0] : Fin 3 → Nat) a + S8x1024x128.size a ≤ S8x1024x256.size a
  inb_S8x1024x256_S8x1024x128_0_0_128 : ∀ a, (![0, 0, 128] : Fin 3 → Nat) a + S8x1024x128.size a ≤ S8x1024x256.size a
  dot_S8192x128_S128x128_S8192x128_1_1_0_0_n_n_wf : DotDims.WF S8192x128 S128x128 S8192x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x128.size a ≤ S256x1024x128.size a
  hwx0_0 : ∀ i : grid0.Coords, EltTy.bits .f32 = 32 ∨ (Rect.block (s := S256x1024x128) S8x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S256x1024.size a
  hwx0_1 : ∀ i : grid0.Coords, EltTy.bits .i32 = 32 ∨ (Rect.block (s := S256x1024) S8x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S256x1024.size a
  hwx0_2 : ∀ i : grid0.Coords, EltTy.bits .i32 = 32 ∨ (Rect.block (s := S256x1024) S8x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S256x1024.size a
  hwx0_3 : ∀ i : grid0.Coords, EltTy.bits .i32 = 32 ∨ (Rect.block (s := S256x1024) S8x1024.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x1024x256.size a ≤ S256x1024x256.size a
  hwx0_5 : ∀ i : grid0.Coords, EltTy.bits .f32 = 32 ∨ (Rect.block (s := S256x1024x256) S8x1024x256.size (cc0_transform_5 i) (hinb0_5 i)).WholeWords (EltTy.packing .f32)

variable [Facts₀]

def dot_S8192x128_S128x128_S8192x128_1_1_0_0_n_n : DotDims S8192x128 S128x128 S8192x128 where
  lhsContracting := [1]
  rhsContracting := [1]
  lhsNonContracting := [0]
  rhsNonContracting := [0]
  lhsBatch := []
  rhsBatch := []
  wf := dot_S8192x128_S128x128_S8192x128_1_1_0_0_n_n_wf

abbrev win0_0 : Pipeline.Window sig grid0 :=
  Pipeline.Window.ofSpec (Memref.whole main_arg0) S8x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S8x1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S256x1024x128 : Shape := ⟨3, ![256, 1024, 128]⟩
abbrev S256x1024 : Shape := ⟨2, ![256, 1024]⟩
abbrev S128x128 : Shape := ⟨2, ![128, 128]⟩
abbrev S256x1024x1 : Shape := ⟨3, ![256, 1024, 1]⟩
abbrev S1x1x32 : Shape := ⟨3, ![1, 1, 32]⟩
abbrev S256x1024x32 : Shape := ⟨3, ![256, 1024, 32]⟩
abbrev S1x1x64 : Shape := ⟨3, ![1, 1, 64]⟩
abbrev S256x1024x64 : Shape := ⟨3, ![256, 1024, 64]⟩
abbrev S_ : Shape := ⟨0, ![]⟩
abbrev S256x1024x256 : Shape := ⟨3, ![256, 1024, 256]⟩

abbrev nBuf : Space → Nat
  | .hbm => 62
  | .vmem => 0
  | .smem => 0
  | _ => 0

abbrev bufTy : (tb : Table) → Fin (tcTables nBuf tb) → BufTy
  | .hbm, ⟨0, _⟩ => ⟨S256x1024x128, .f32⟩
  | .hbm, ⟨1, _⟩ => ⟨S256x1024, .i32⟩
  | .hbm, ⟨2, _⟩ => ⟨S256x1024, .i32⟩
  | .hbm, ⟨3, _⟩ => ⟨S256x1024, .i32⟩
  | .hbm, ⟨4, _⟩ => ⟨S128x128, .f32⟩
  | .hbm, ⟨5, _⟩ => ⟨S256x1024x1, .i32⟩
  | .hbm, ⟨6, _⟩ => ⟨S1x1x32, .i32⟩
  | .hbm, ⟨7, _⟩ => ⟨S256x1024x32, .i32⟩
  | .hbm, ⟨8, _⟩ => ⟨S256x1024x32, .i32⟩
  | .hbm, ⟨9, _⟩ => ⟨S256x1024x32, .i1⟩
  | .hbm, ⟨10, _⟩ => ⟨S256x1024x32, .f32⟩
  | .hbm, ⟨11, _⟩ => ⟨S256x1024x1, .i32⟩
  | .hbm, ⟨12, _⟩ => ⟨S1x1x32, .i32⟩
  | .hbm, ⟨13, _⟩ => ⟨S256x1024x32, .i32⟩
  | .hbm, ⟨14, _⟩ => ⟨S256x1024x32, .i32⟩
  | .hbm, ⟨15, _⟩ => ⟨S256x1024x32, .i1⟩
  | .hbm, ⟨16, _⟩ => ⟨S256x1024x32, .f32⟩
  | .hbm, ⟨17, _⟩ => ⟨S256x1024x1, .i32⟩
  | .hbm, ⟨18, _⟩ => ⟨S1x1x64, .i32⟩
  | .hbm, ⟨19, _⟩ => ⟨S256x1024x64, .i32⟩
  | .hbm, ⟨20, _⟩ => ⟨S256x1024x64, .i32⟩
  | .hbm, ⟨21, _⟩ => ⟨S256x1024x64, .i1⟩
  | .hbm, ⟨22, _⟩ => ⟨S256x1024x64, .f32⟩
  | .hbm, ⟨23, _⟩ => ⟨S256x1024x128, .f32⟩
  | .hbm, ⟨24, _⟩ => ⟨S128x128, .f32⟩
  | .hbm, ⟨25, _⟩ => ⟨S_, .i32⟩
  | .hbm, ⟨26, _⟩ => ⟨S256x1024, .i32⟩
  | .hbm, ⟨27, _⟩ => ⟨S256x1024, .i1⟩
  | .hbm, ⟨28, _⟩ => ⟨S_, .i32⟩
  | .hbm, ⟨29, _⟩ => ⟨S256x1024, .i32⟩
  | .hbm, ⟨30, _⟩ => ⟨S256x1024, .i32⟩
  | .hbm, ⟨31, _⟩ => ⟨S256x1024, .i32⟩
  | .hbm, ⟨32, _⟩ => ⟨S256x1024x1, .i32⟩
  | .hbm, ⟨33, _⟩ => ⟨S256x1024x128, .f32⟩
  | .hbm, ⟨34, _⟩ => ⟨S_, .i32⟩
  | .hbm, ⟨35, _⟩ => ⟨S256x1024, .i32⟩
  | .hbm, ⟨36, _⟩ => ⟨S256x1024, .i32⟩
  | .hbm, ⟨37, _⟩ => ⟨S_, .i32⟩
  | .hbm, ⟨38, _⟩ => ⟨S256x1024, .i32⟩
  | .hbm, ⟨39, _⟩ => ⟨S256x1024, .i1⟩
  | .hbm, ⟨40, _⟩ => ⟨S_, .i32⟩
  | .hbm, ⟨41, _⟩ => ⟨S256x1024, .i32⟩
  | .hbm, ⟨42, _⟩ => ⟨S256x1024, .i32⟩
  | .hbm, ⟨43, _⟩ => ⟨S256x1024, .i32⟩
  | .hbm, ⟨44, _⟩ => ⟨S256x1024x1, .i32⟩
  | .hbm, ⟨45, _⟩ => ⟨S256x1024x128, .f32⟩
  | .hbm, ⟨46, _⟩ => ⟨S256x1024x128, .f32⟩
  | .hbm, ⟨47, _⟩ => ⟨S_, .i32⟩
  | .hbm, ⟨48, _⟩ => ⟨S256x1024, .i32⟩
  | .hbm, ⟨49, _⟩ => ⟨S256x1024, .i32⟩
  | .hbm, ⟨50, _⟩ => ⟨S_, .i32⟩
  | .hbm, ⟨51, _⟩ => ⟨S256x1024, .i32⟩
  | .hbm, ⟨52, _⟩ => ⟨S256x1024, .i1⟩
  | .hbm, ⟨53, _⟩ => ⟨S_, .i32⟩
  | .hbm, ⟨54, _⟩ => ⟨S256x1024, .i32⟩
  | .hbm, ⟨55, _⟩ => ⟨S256x1024, .i32⟩
  | .hbm, ⟨56, _⟩ => ⟨S256x1024, .i32⟩
  | .hbm, ⟨57, _⟩ => ⟨S256x1024x1, .i32⟩
  | .hbm, ⟨58, _⟩ => ⟨S256x1024x128, .f32⟩
  | .hbm, ⟨59, _⟩ => ⟨S256x1024x128, .f32⟩
  | .hbm, ⟨60, _⟩ => ⟨S256x1024x128, .f32⟩
  | .hbm, ⟨61, _⟩ => ⟨S256x1024x256, .f32⟩
  | _, _ => ⟨S256x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v1 : Ref sig .tc := ⟨.hbm, 16, rfl⟩
abbrev main_call2_v0 : Ref sig .tc := ⟨.hbm, 17, rfl⟩
abbrev main_call2_v1 : Ref sig .tc := ⟨.hbm, 18, rfl⟩
abbrev main_call2_v2 : Ref sig .tc := ⟨.hbm, 19, rfl⟩
abbrev main_call2_v3 : Ref sig .tc := ⟨.hbm, 20, rfl⟩
abbrev main_call2_v4 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_c : Ref sig .tc := ⟨.hbm, 25, rfl⟩
abbrev main_v5 : Ref sig .tc := ⟨.hbm, 26, rfl⟩
abbrev main_v6 : Ref sig .tc := ⟨.hbm, 27, rfl⟩
abbrev main_c_0 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c_1 : Ref sig .tc := ⟨.hbm, 34, rfl⟩
abbrev main_v12 : Ref sig .tc := ⟨.hbm, 35, rfl⟩
abbrev main_v13 : Ref sig .tc := ⟨.hbm, 36, rfl⟩
abbrev main_c_2 : Ref sig .tc := ⟨.hbm, 37, rfl⟩
abbrev main_v14 : Ref sig .tc := ⟨.hbm, 38, rfl⟩
abbrev main_v15 : Ref sig .tc := ⟨.hbm, 39, rfl⟩
abbrev main_c_3 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_4 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_c_6 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩

abbrev nD : Nat := 1
abbrev τ : Topo := Topo.v7x

variable {F : FTy → Type} [FloatOps F]

class Facts₀ : Prop where
  bcast_S256x1024_S256x1024x1_0_1 : S256x1024.BroadcastsInDim S256x1024x1 (![0, 1] : Fin 2 → Fin S256x1024x1.rank)
  bcast_S256x1024x1_S256x1024x32_0_1_2 : S256x1024x1.BroadcastsInDim S256x1024x32 (![0, 1, 2] : Fin 3 → Fin S256x1024x32.rank)
  bcast_S1x1x32_S256x1024x32_0_1_2 : S1x1x32.BroadcastsInDim S256x1024x32 (![0, 1, 2] : Fin 3 → Fin S256x1024x32.rank)
  bcast_S256x1024x1_S256x1024x64_0_1_2 : S256x1024x1.BroadcastsInDim S256x1024x64 (![0, 1, 2] : Fin 3 → Fin S256x1024x64.rank)
  bcast_S1x1x64_S256x1024x64_0_1_2 : S1x1x64.BroadcastsInDim S256x1024x64 (![0, 1, 2] : Fin 3 → Fin S256x1024x64.rank)
  concatenates_S256x1024x32_S256x1024x32_S256x1024x64_S256x1024x128_d2 : Shape.Concatenates [S256x1024x32, S256x1024x32, S256x1024x64] S256x1024x128 2
  transposes_S128x128_S128x128_1_0 : S128x128.Transposes [1, 0] S128x128
  bcast_S_S256x1024 : S_.BroadcastsInDim S256x1024 (![] : Fin 0 → Fin S256x1024.rank)
  concatenates_S256x1024x128_S256x1024x128_S256x1024x256_d2 : Shape.Concatenates [S256x1024x128, S256x1024x128] S256x1024x256 2
  gather_S128x128_S256x1024x1_S256x1024x128_2_0_n_n_0_2_1128_wf : GatherDims.WF S128x128 S256x1024x1 S256x1024x128 [2] [0] [] [0] [] 2 ![1, 128]

variable [Facts₀]

def gather_S128x128_S256x1024x1_S256x1024x128_2_0_n_n_0_2_1128 : GatherDims S128x128 S256x1024x1 S256x1024x128 where
  offsetDims := [2]
  collapsedSliceDims := [0]
  operandBatchingDims := []
  startIndicesBatchingDims := []
  startIndexMap := [0]
  indexVectorDim := 2
  sliceSizes := ![1, 128]
  wf := gather_S128x128_S256x1024x1_S256x1024x128_2_0_n_n_0_2_1128_wf

class Facts : Prop extends Facts₀ where

variable [Facts]
-- ==== Proof.Spec.lean ====
/-
  The mathematics shared by the two programs, with no program in sight.

  Each row (b, q) carries three bin labels r ∈ [0, 32), s ∈ [0, 32), p ∈ [0, 64).  Laid side by side in a row of 128
  columns, their one-hot codes are the indicator of the three columns r, 32 + s and 64 + p: the three ranges
  [0, 32), [32, 64), [64, 128) are disjoint, so testing a column against all three shifted labels at once is the same
  as testing it against the one label whose range it lies in.  A linear layer applied to that row is then the sum
  of three columns of its weight matrix: Σ_n hot(n) · W[e, n] = W[e, r] + W[e, 32 + s] + W[e, 64 + p], over the
  extended reals as well (only 0 · x = 0, 1 · x = x and the commutative monoid structure of + are used, so no
  finiteness is needed).
-/
import Idealize.ShloMosaic.PureOps.Ideal
import Idealize.ShloMosaic.Lib.Affine
import Idealize.ShloMosaic.Lib.ValueIdx

noncomputable section

open scoped BigOperators

namespace Cert.Bins

open Idealize.ShloMosaic Idealize.ShloMosaic.ValueIdx

/-! ## A sum against an indicator of three distinct points -/

/-- Over any commutative monoid with a multiplication by 0 and 1 — here the extended reals — the sum of `f` against the
    indicator of three distinct points is the sum of its three values there. -/
theorem sum_three {ι : Type} [Fintype ι] [DecidableEq ι] (a b c : ι) (hab : a ≠ b) (hac : a ≠ c) (hbc : b ≠ c)
    (f : ι → EReal) :
    ∑ n, (if n = a ∨ n = b ∨ n = c then (1 : EReal) else 0) * f n = f a + f b + f c := by
  have h : ∀ n, (if n = a ∨ n = b ∨ n = c then (1 : EReal) else 0) * f n
      = (if n = a then f n else 0) + (if n = b then f n else 0) + (if n = c then f n else 0) := by
    intro n
    by_cases ha : n = a
    · subst ha; simp [hab, hac]
    · by_cases hb : n = b
      · subst hb; simp [ha, hbc]
      · by_cases hc : n = c
        · subst hc; simp [ha, hb]
        · simp [ha, hb, hc]
  simp only [h, Finset.sum_add_distrib, Finset.sum_ite_eq', Finset.mem_univ, if_true]

/-! ## Columns and the hot row -/

/-- Column `k` of a row of 128, wrapped so that it is defined for every `k` (the labels in range never wrap). -/
def col (k : ℕ) : Fin 128 := ⟨k % 128, Nat.mod_lt _ (by decide)⟩

theorem col_val {k : ℕ} (h : k < 128) : (col k).val = k := Nat.mod_eq_of_lt h

/-- The concatenated one-hot row of the labels r, s, p at column `n`: 1 at columns r, 32 + s, 64 + p. -/
def hot (r s p : BitVec 32) (n : ℕ) : EReal :=
  if n = r.toNat ∨ n = 32 + s.toNat ∨ n = 64 + p.toNat then 1 else 0

/-- A bit read as a number: what converting a truth value to a float gives at the ideal values. -/
def bitR (b : BitVec 1) : EReal := (((b.toNat : ℕ) : ℝ) : EReal)

/-- Column `n` tested against the three shifted labels at once, the three bits or-ed. -/
def kbit (r s p : BitVec 32) (n : ℕ) : BitVec 1 :=
  IntOp.ori (IntOp.ori (IntOp.cmpi .eq (BitVec.ofNat 32 n) r) (IntOp.cmpi .eq (BitVec.ofNat 32 n) (IntOp.addi 32#32 s)))
    (IntOp.cmpi .eq (BitVec.ofNat 32 n) (IntOp.addi 64#32 p))

theorem bit_cast (b : BitVec 1) : bitR b = if b = 1#1 then 1 else 0 := by
  unfold bitR
  rcases BitVec.eq_zero_or_eq_one b with h | h
  · subst h
    rw [if_neg (by decide), show (0#1 : BitVec 1).toNat = 0 from rfl]; simp
  · subst h
    rw [if_pos rfl, show (1#1 : BitVec 1).toNat = 1 from rfl]; simp

/-- A small number as a word is the word `x` exactly when it is `x` read unsigned. -/
theorem ofNat_eq_iff (n : ℕ) (hn : n < 2 ^ 32) (x : BitVec 32) : BitVec.ofNat 32 n = x ↔ n = x.toNat := by
  constructor
  · intro h; rw [← h, BitVec.toNat_ofNat, Nat.mod_eq_of_lt hn]
  · intro h; apply BitVec.eq_of_toNat_eq; rw [BitVec.toNat_ofNat, Nat.mod_eq_of_lt hn, h]

/-- Shifting a small label by a small literal does not wrap. -/
theorem toNat_addi (k : ℕ) (hk : k < 2 ^ 31) (x : BitVec 32) (hx : x.toNat < 2 ^ 31) :
    (IntOp.addi (BitVec.ofNat 32 k) x).toNat = k + x.toNat := by
  unfold IntOp.addi
  rw [BitVec.toNat_add, BitVec.toNat_ofNat, Nat.mod_eq_of_lt (by omega : k < 2 ^ 32), Nat.mod_eq_of_lt (by omega)]

/-- THE KERNEL'S ROW: column `n` tested against the three shifted labels at once, the three bits or-ed, is the hot row. -/
theorem kernel_bit (r s p : BitVec 32) (hr : r.toNat < 32) (hs : s.toNat < 32) (hp : p.toNat < 64) (n : ℕ) (hn : n < 128) :
    bitR (kbit r s p n) = hot r s p n := by
  rw [bit_cast]
  unfold hot kbit
  refine if_congr ?_ rfl rfl
  rw [IntOp.ori_eq_one, IntOp.ori_eq_one, IntOp.cmpi_eq, IntOp.cmpi_eq, IntOp.cmpi_eq,
    ofNat_eq_iff n (by omega), ofNat_eq_iff n (by omega), ofNat_eq_iff n (by omega),
    toNat_addi 32 (by norm_num) s (by omega), toNat_addi 64 (by norm_num) p (by omega), or_assoc]

/-- THE REFERENCE'S ROW, first third: the label r tested against column `n < 32`. -/
theorem ref_bit_r (r s p : BitVec 32) (hs : s.toNat < 32) (hp : p.toNat < 64) (n : ℕ) (hn : n < 32) :
    bitR (IntOp.cmpi .eq r (BitVec.ofNat 32 n)) = hot r s p n := by
  rw [bit_cast]
  unfold hot
  refine if_congr ?_ rfl rfl
  rw [IntOp.cmpi_eq, eq_comm, ofNat_eq_iff n (by omega)]
  constructor
  · intro h; exact Or.inl h
  · rintro (h | h | h)
    · exact h
    · omega
    · omega

/-- Second third: the label s tested against column `n < 32` is the hot row at column 32 + n. -/
theorem ref_bit_s (r s p : BitVec 32) (hr : r.toNat < 32) (hp : p.toNat < 64) (n : ℕ) (hn : n < 32) :
    bitR (IntOp.cmpi .eq s (BitVec.ofNat 32 n)) = hot r s p (32 + n) := by
  rw [bit_cast]
  unfold hot
  refine if_congr ?_ rfl rfl
  rw [IntOp.cmpi_eq, eq_comm, ofNat_eq_iff n (by omega)]
  constructor
  · intro h; exact Or.inr (Or.inl (by omega))
  · rintro (h | h | h)
    · omega
    · omega
    · omega

/-- Last half: the label p tested against column `n < 64` is the hot row at column 64 + n. -/
theorem ref_bit_p (r s p : BitVec 32) (hr : r.toNat < 32) (hs : s.toNat < 32) (n : ℕ) (hn : n < 64) :
    bitR (IntOp.cmpi .eq p (BitVec.ofNat 32 n)) = hot r s p (64 + n) := by
  rw [bit_cast]
  unfold hot
  refine if_congr ?_ rfl rfl
  rw [IntOp.cmpi_eq, eq_comm, ofNat_eq_iff n (by omega)]
  constructor
  · intro h; exact Or.inr (Or.inr (by omega))
  · rintro (h | h | h)
    · omega
    · omega
    · omega

/-- A linear layer on the hot row: the sum over the 128 columns against the hot row is the three weight columns added. -/
theorem sum_hot (r s p : BitVec 32) (hr : r.toNat < 32) (hs : s.toNat < 32) (hp : p.toNat < 64) (f : Fin 128 → EReal) :
    ∑ n : Fin 128, hot r s p n.val * f n = f (col r.toNat) + f (col (32 + s.toNat)) + f (col (64 + p.toNat)) := by
  rw [← sum_three (col r.toNat) (col (32 + s.toNat)) (col (64 + p.toNat))
    (fun h => by have := congrArg Fin.val h; rw [col_val (by omega), col_val (by omega)] at this; omega)
    (fun h => by have := congrArg Fin.val h; rw [col_val (by omega), col_val (by omega)] at this; omega)
    (fun h => by have := congrArg Fin.val h; rw [col_val (by omega), col_val (by omega)] at this; omega) f]
  refine Finset.sum_congr rfl fun n _ => ?_
  unfold hot
  congr 1
  refine if_congr ?_ rfl rfl
  rw [Fin.ext_iff, Fin.ext_iff, Fin.ext_iff, col_val (by omega), col_val (by omega), col_val (by omega)]

/-! ## Indexing a table of 128 rows by a label, jnp's way -/

/-- jnp's index normalisation (a negative index counts from the end) followed by the gather's clamp into [0, 127] leaves a
    label already in [0, 128) where it is. -/
theorem take_index (x : BitVec 32) (hx : x.toNat < 128) :
    min (Scalar.select (IntOp.cmpi .slt x 0#32) (IntOp.addi x 128#32) x).toInt.toNat (128 - 1) = x.toNat := by
  have hi : x.toInt = x.toNat := by unfold BitVec.toInt; rw [if_pos (by omega)]
  have hc : IntOp.cmpi .slt x 0#32 = 0#1 := by
    apply eq_zero_of_ne_one
    rw [IntOp.cmpi_slt, hi]
    simp
  rw [hc, select_zero, hi]
  simp only [Int.toNat_natCast]
  omega

/-! ## The result, two ways -/

section Result
variable {B : ℕ}

/-- THE KERNEL'S WAY, for a batch of `B` rows of 1024: in the first 128 columns the input times the hot row pushed through
    the linear layer as a sum over its 128 columns; in the last 128 columns the hot row itself. -/
def Kc (vt : (⟨3, ![B, 1024, 128]⟩ : Shape).Idx → EReal) (r s p : (⟨2, ![B, 1024]⟩ : Shape).Idx → BitVec 32)
    (W : (⟨2, ![128, 128]⟩ : Shape).Idx → EReal) (b : Fin B) (q : Fin 1024) (j : Fin 256) : EReal :=
  if h : j.val < 128 then
    vt (ix3 b q (⟨j.val, h⟩ : Fin 128))
      * ∑ n : Fin 128, bitR (kbit (r (ix2 b q)) (s (ix2 b q)) (p (ix2 b q)) n.val) * W (ix2 (⟨j.val, h⟩ : Fin 128) n)
  else bitR (kbit (r (ix2 b q)) (s (ix2 b q)) (p (ix2 b q)) (j.val - 128))

/-- The same as an array. -/
def K (vt : (⟨3, ![B, 1024, 128]⟩ : Shape).Idx → EReal) (r s p : (⟨2, ![B, 1024]⟩ : Shape).Idx → BitVec 32)
    (W : (⟨2, ![128, 128]⟩ : Shape).Idx → EReal) : (⟨3, ![B, 1024, 256]⟩ : Shape).Idx → EReal :=
  fun i => Kc vt r s p W (i 0) (i 1) (i 2)

/-- THE RESULT: in the first 128 columns the input times the three weight columns the labels name, added; in the last 128
    the hot row. -/
def Gc (vt : (⟨3, ![B, 1024, 128]⟩ : Shape).Idx → EReal) (r s p : (⟨2, ![B, 1024]⟩ : Shape).Idx → BitVec 32)
    (W : (⟨2, ![128, 128]⟩ : Shape).Idx → EReal) (b : Fin B) (q : Fin 1024) (j : Fin 256) : EReal :=
  if h : j.val < 128 then
    vt (ix3 b q (⟨j.val, h⟩ : Fin 128))
      * (W (ix2 (⟨j.val, h⟩ : Fin 128) (col (r (ix2 b q)).toNat)) + W (ix2 (⟨j.val, h⟩ : Fin 128) (col (32 + (s (ix2 b q)).toNat)))
          + W (ix2 (⟨j.val, h⟩ : Fin 128) (col (64 + (p (ix2 b q)).toNat))))
  else hot (r (ix2 b q)) (s (ix2 b q)) (p (ix2 b q)) (j.val - 128)

def G (vt : (⟨3, ![B, 1024, 128]⟩ : Shape).Idx → EReal) (r s p : (⟨2, ![B, 1024]⟩ : Shape).Idx → BitVec 32)
    (W : (⟨2, ![128, 128]⟩ : Shape).Idx → EReal) : (⟨3, ![B, 1024, 256]⟩ : Shape).Idx → EReal :=
  fun i => Gc vt r s p W (i 0) (i 1) (i 2)

/-- With the labels of row (b, q) in their ranges the kernel's way gives the result. -/
theorem Kc_eq_Gc (vt : (⟨3, ![B, 1024, 128]⟩ : Shape).Idx → EReal) (r s p : (⟨2, ![B, 1024]⟩ : Shape).Idx → BitVec 32)
    (W : (⟨2, ![128, 128]⟩ : Shape).Idx → EReal) (b : Fin B) (q : Fin 1024) (j : Fin 256)
    (hr : (r (ix2 b q)).toNat < 32) (hs : (s (ix2 b q)).toNat < 32) (hp : (p (ix2 b q)).toNat < 64) :
    Kc vt r s p W b q j = Gc vt r s p W b q j := by
  unfold Kc Gc
  by_cases h : j.val < 128
  · rw [dif_pos h, dif_pos h]
    congr 1
    rw [← sum_hot _ _ _ hr hs hp (fun n => W (ix2 (⟨j.val, h⟩ : Fin 128) n))]
    exact Finset.sum_congr rfl fun n _ => by rw [kernel_bit _ _ _ hr hs hp n.val n.isLt]
  · rw [dif_neg h, dif_neg h]
    exact kernel_bit _ _ _ hr hs hp _ (by have := j.isLt; omega)

/-- As arrays, when every row's labels are in their ranges. -/
theorem K_eq_G (vt : (⟨3, ![B, 1024, 128]⟩ : Shape).Idx → EReal) (r s p : (⟨2, ![B, 1024]⟩ : Shape).Idx → BitVec 32)
    (W : (⟨2, ![128, 128]⟩ : Shape).Idx → EReal)
    (H : ∀ i, (r i).toNat < 32 ∧ (s i).toNat < 32 ∧ (p i).toNat < 64) : K vt r s p W = G vt r s p W :=
  funext fun i => Kc_eq_Gc vt r s p W (i 0) (i 1) (i 2) (H _).1 (H _).2.1 (H _).2.2

/-- The kernel's way on a block of rows is the kernel's way on the whole batch at those rows: it reads row (b, q) of a
    block only through that row's entries. -/
theorem Kc_of_rows {B' : ℕ} (β : Fin B' → Fin B)
    (vt : (⟨3, ![B, 1024, 128]⟩ : Shape).Idx → EReal) (r s p : (⟨2, ![B, 1024]⟩ : Shape).Idx → BitVec 32)
    (vt' : (⟨3, ![B', 1024, 128]⟩ : Shape).Idx → EReal) (r' s' p' : (⟨2, ![B', 1024]⟩ : Shape).Idx → BitVec 32)
    (W : (⟨2, ![128, 128]⟩ : Shape).Idx → EReal) (b : Fin B') (q : Fin 1024) (j : Fin 256)
    (hvt : ∀ e : Fin 128, vt' (ix3 b q e) = vt (ix3 (β b) q e))
    (hr : r' (ix2 b q) = r (ix2 (β b) q)) (hs : s' (ix2 b q) = s (ix2 (β b) q)) (hp : p' (ix2 b q) = p (ix2 (β b) q)) :
    Kc vt' r' s' p' W b q j = Kc vt r s p W (β b) q j := by
  unfold Kc
  rw [hr, hs, hp]
  by_cases h : j.val < 128
  · rw [dif_pos h, dif_pos h, hvt]
  · rw [dif_neg h, dif_neg h]

end Result

end Cert.Bins

end
-- ==== Proof.PreDecode.lean ====
/-
  The precondition, read back: beside the finiteness of the two float inputs it says that every label lies in its bin
  range — 0 ≤ rgap < 32, 0 ≤ sgap < 32, 0 ≤ pcount < 64, compared as signed words — which for a 32-bit word is the same
  as its unsigned reading being below the bound.
-/
import proofs.«422377_j11038065951535_2_alg».proof.Pre_finite_inputs
import proofs.«422377_j11038065951535_2_alg».proof.Proof.Gen.Pre_finite_inputs
import Idealize.ShloMosaic.Lib.ReduceAll
import Idealize.ShloMosaic.Lib.Affine
import Idealize.ShloMosaic.Lib.ValueIdx

noncomputable section

namespace Cert.Pre_finite_inputs.Decode

open Cert.Pre_finite_inputs Idealize.ShloMosaic Idealize.ShloMosaic.ValueIdx

instance : Subsingleton S_.Idx := ⟨fun a b => funext fun d => d.elim0⟩

/-- A word that is at least 0 and below `n` as a signed number is below `n` as an unsigned one. -/
theorem toNat_lt_of_signed (w : BitVec 32) (n : ℕ) (hn : n < 2 ^ 31) (h0 : IntOp.cmpi .sge w 0#32 = 1#1)
    (h1 : IntOp.cmpi .slt w (BitVec.ofNat 32 n) = 1#1) : w.toNat < n := by
  rw [IntOp.cmpi_sge] at h0
  rw [IntOp.cmpi_slt] at h1
  have e0 : (0#32 : BitVec 32).toInt = 0 := rfl
  have en : (BitVec.ofNat 32 n).toInt = n := by
    unfold BitVec.toInt
    rw [BitVec.toNat_ofNat, Nat.mod_eq_of_lt (by omega), if_pos (by omega)]
  rw [e0] at h0
  rw [en] at h1
  have hw := w.isLt
  unfold BitVec.toInt at h0 h1
  split at h0 <;> omega

/-- One `jnp.all((x >= 0) & (x < n))` conjunct, read at a row. -/
theorem label_range (x : IVec S256x1024 32) (n : ℕ) (hn : n < 2 ^ 31) (init : IVec S_ 1)
    (e : Host.reduce IntOp.andi
        (andi (cmpi .sge x (broadcastInDim S256x1024 ![] Facts.bcast_S_S256x1024 (constantI S_ 32 0#32)))
          (cmpi .slt x (broadcastInDim S256x1024 ![] Facts.bcast_S_S256x1024 (constantI S_ 32 (BitVec.ofNat 32 n)))))
        init Facts.reducesTo_S256x1024_S_d0_1 Facts.h_S_ ix0 = 1#1)
    (i : S256x1024.Idx) : (x i).toNat < n := by
  have h := Host.reduce_andi_all _ _ _ _ ix0 e i
  obtain ⟨h0, h1⟩ := IntOp.andi_eq_one.1 h
  exact toNat_lt_of_signed _ n hn h0 h1

/-- THE LABELS ARE IN THEIR BINS wherever the precondition holds. -/
theorem labels_in_range {F : FTy → Type} [FloatOps F] (x0 : FVec F S256x1024x128 .f32) (x1 x2 x3 : IVec S256x1024 32) (x4 : FVec F S128x128 .f32)
    (h : fn (F := F) x0 x1 x2 x3 x4 = fun _ => 1#1) (i : S256x1024.Idx) :
    (x1 i).toNat < 32 ∧ (x2 i).toNat < 32 ∧ (x3 i).toNat < 64 := by
  have e := congrFun h ix0
  unfold fn fn_part1 at e
  dsimp only at e
  have e' : IntOp.andi (IntOp.andi (IntOp.andi _ _) _) _ = 1#1 := e
  obtain ⟨e12, e3⟩ := IntOp.andi_eq_one.1 e'
  obtain ⟨e1', e2⟩ := IntOp.andi_eq_one.1 e12
  obtain ⟨-, e1⟩ := IntOp.andi_eq_one.1 e1'
  exact ⟨label_range x1 32 (by norm_num) _ e1 i, label_range x2 32 (by norm_num) _ e2 i, label_range x3 64 (by norm_num) _ e3 i⟩

end Cert.Pre_finite_inputs.Decode

end
-- ==== Proof.KernelValue.lean ====
/-
  What the kernel's body computes on one block, read at an index.

  The body builds, for each of the block's 8 × 1024 rows, the hot row of the three labels (column n compared with r,
  32 + s and 64 + p at once, the three bits or-ed, the bit converted to a float), pushes it through the linear layer as a
  product of the [8192, 128] matrix of hot rows with the weight matrix contracted along both operands' second axis, and
  stores the input times that product in the first 128 columns of the output block and the hot rows in the last 128.
-/
import proofs.«422377_j11038065951535_2_alg».proof.Proof.Gen.KernelIdeal.Frame
import proofs.«422377_j11038065951535_2_alg».proof.Proof.Spec
import Idealize.ShloMosaic.Lib.Pipeline.Value
import Idealize.ShloMosaic.Lib.ValueIdx
import Idealize.ShloMosaic.Lib.KernelVsHost
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Cert.Bins

/-! ## The layout operations of the body at an index -/

/-- The labels of a block as a column: entry (b, q, 0) is the label of row (b, q). -/
theorem column_apply (v : IVec S8x1024 32) (h : S8x1024.ShapeCasts S8x1024x1) (b : Fin 8) (q : Fin 1024) :
    shapeCast S8x1024x1 v h (ix3 b q (0 : Fin 1)) = v (ix2 b q) :=
  shapeCast_apply v h _ _ (by
    rw [Shape.rowMajor_val_two, Shape.rowMajor_val_three]
    show b.val * 1024 + q.val = (b.val * 1024 + q.val) * 1 + 0
    omega)

/-- A column laid along the 128 columns reads, at (b, q, n), the column's entry of row (b, q). -/
theorem along_apply (v : IVec S8x1024x1 32) (h : S8x1024x1.Broadcasts S8x1024x128) (b : Fin 8) (q : Fin 1024) (n : Fin 128) :
    broadcastTo S8x1024x128 v h (ix3 b q n) = v (ix3 b q (0 : Fin 1)) :=
  broadcastTo_apply v h _ _ (fun a => match a with
    | ⟨0, _⟩ => by show b.val = if (8 : Nat) = 1 then 0 else b.val; rw [if_neg (by decide)]
    | ⟨1, _⟩ => by show q.val = if (1024 : Nat) = 1 then 0 else q.val; rw [if_neg (by decide)]
    | ⟨2, _⟩ => by show (0 : Nat) = if (1 : Nat) = 1 then 0 else n.val; rw [if_pos rfl])

/-- The column counter reads its column. -/
theorem counter_apply (h : S8x1024x128.Iotas .tc 32 [2]) (b : Fin 8) (q : Fin 1024) (n : Fin 128) :
    iota .tc S8x1024x128 32 [2] h (ix3 b q n) = BitVec.ofNat 32 n.val :=
  iota_single_apply .tc S8x1024x128 32 2 h (ix3 b q n)

/-- THE HOT ROWS: the body's first payload at (b, q, n) is the or-ed bit of column n against the three shifted labels of
    row (b, q), as a number. -/
theorem pay1_apply (v0 v2 v4 : IVec S8x1024 32) (b : Fin 8) (q : Fin 1024) (n : Fin 128) :
    k0_pay1 (F := Ideal) v0 v2 v4 (ix3 b q n) = bitR (kbit (v0 (ix2 b q)) (v2 (ix2 b q)) (v4 (ix2 b q)) n.val) := by
  unfold k0_pay1
  dsimp only
  rw [sitofp_extui_eq_uitofp]
  show bitR (IntOp.ori (IntOp.ori (IntOp.cmpi .eq (iota .tc S8x1024x128 32 [2] _ (ix3 b q n)) (broadcastTo S8x1024x128 _ _ (ix3 b q n)))
    (IntOp.cmpi .eq (iota .tc S8x1024x128 32 [2] _ (ix3 b q n)) (broadcastTo S8x1024x128 _ _ (ix3 b q n))))
    (IntOp.cmpi .eq (iota .tc S8x1024x128 32 [2] _ (ix3 b q n)) (broadcastTo S8x1024x128 _ _ (ix3 b q n)))) = _
  rw [counter_apply, along_apply, along_apply, along_apply]
  show bitR (IntOp.ori (IntOp.ori (IntOp.cmpi .eq _ (shapeCast S8x1024x1 v0 _ (ix3 b q (0 : Fin 1))))
    (IntOp.cmpi .eq _ (IntOp.addi 32#32 (shapeCast S8x1024x1 v2 _ (ix3 b q (0 : Fin 1))))))
    (IntOp.cmpi .eq _ (IntOp.addi 64#32 (shapeCast S8x1024x1 v4 _ (ix3 b q (0 : Fin 1)))))) = _
  rw [column_apply, column_apply, column_apply]
  rfl

/-! ## The linear layer: a matrix product contracted along both operands' second axis -/

theorem lhs_row (j : S8192x128.Idx) (k : dot_S8192x128_S128x128_S8192x128_1_1_0_0_n_n.contr.Idx) :
    (dot_S8192x128_S128x128_S8192x128_1_1_0_0_n_n.lhsIdx j k 0).val = (j 0).val := by
  unfold DotDims.lhsIdx
  rw [dif_neg (show ¬(0 : Fin S8192x128.rank) ∈ dot_S8192x128_S128x128_S8192x128_1_1_0_0_n_n.lhsBatch by decide),
    dif_pos (show (0 : Fin S8192x128.rank) ∈ dot_S8192x128_S128x128_S8192x128_1_1_0_0_n_n.lhsNonContracting by decide)]
  rfl

theorem lhs_col (j : S8192x128.Idx) (k : dot_S8192x128_S128x128_S8192x128_1_1_0_0_n_n.contr.Idx) :
    (dot_S8192x128_S128x128_S8192x128_1_1_0_0_n_n.lhsIdx j k 1).val = (k ⟨0, by decide⟩).val :=
  dot_S8192x128_S128x128_S8192x128_1_1_0_0_n_n.lhsIdx_val_of_single rfl j k

theorem rhs_row (j : S8192x128.Idx) (k : dot_S8192x128_S128x128_S8192x128_1_1_0_0_n_n.contr.Idx) :
    (dot_S8192x128_S128x128_S8192x128_1_1_0_0_n_n.rhsIdx j k 0).val = (j 1).val := by
  unfold DotDims.rhsIdx
  rw [dif_neg (show ¬(0 : Fin S128x128.rank) ∈ dot_S8192x128_S128x128_S8192x128_1_1_0_0_n_n.rhsBatch by decide),
    dif_pos (show (0 : Fin S128x128.rank) ∈ dot_S8192x128_S128x128_S8192x128_1_1_0_0_n_n.rhsNonContracting by decide)]
  rfl

theorem rhs_col (j : S8192x128.Idx) (k : dot_S8192x128_S128x128_S8192x128_1_1_0_0_n_n.contr.Idx) :
    (dot_S8192x128_S128x128_S8192x128_1_1_0_0_n_n.rhsIdx j k 1).val = (k ⟨0, by decide⟩).val :=
  dot_S8192x128_S128x128_S8192x128_1_1_0_0_n_n.rhsIdx_val_of_single rfl j k

/-- Entry (row, e) of the product into a zero accumulator: the sum over the 128 columns n of lhs[row, n] · rhs[e, n]. -/
theorem layer_apply (lhs : FVec Ideal S8192x128 .f32) (rhs : FVec Ideal S128x128 .f32) (row : Fin 8192) (e : Fin 128) :
    matmul dot_S8192x128_S128x128_S8192x128_1_1_0_0_n_n (some .fp32) lhs rhs (constant S8192x128 .f32 0x00000000#32) (ix2 row e)
      = ∑ n : Fin 128, lhs (ix2 row n) * rhs (ix2 e n) := by
  show FloatOps.matmul _ _ lhs rhs _ _ = _
  rw [Ideal.matmul_constant_zero_apply,
    ← Equiv.sum_comp (contrEquiv1 dot_S8192x128_S128x128_S8192x128_1_1_0_0_n_n 128 rfl rfl).symm]
  refine Finset.sum_congr rfl fun n _ => ?_
  have hl : dot_S8192x128_S128x128_S8192x128_1_1_0_0_n_n.lhsIdx (ix2 row e)
      ((contrEquiv1 dot_S8192x128_S128x128_S8192x128_1_1_0_0_n_n 128 rfl rfl).symm n) = ix2 row n := by
    funext a; apply Fin.ext
    match a with
    | ⟨0, _⟩ => exact lhs_row _ _
    | ⟨1, _⟩ => exact (lhs_col _ _).trans (contrEquiv1_symm_val _ 128 rfl rfl n)
  have hr : dot_S8192x128_S128x128_S8192x128_1_1_0_0_n_n.rhsIdx (ix2 row e)
      ((contrEquiv1 dot_S8192x128_S128x128_S8192x128_1_1_0_0_n_n 128 rfl rfl).symm n) = ix2 e n := by
    funext a; apply Fin.ext
    match a with
    | ⟨0, _⟩ => exact rhs_row _ _
    | ⟨1, _⟩ => exact (rhs_col _ _).trans (contrEquiv1_symm_val _ 128 rfl rfl n)
  rw [hl, hr]

/-- The 8 × 1024 rows of a block flattened to 8192: row (b, q) is row 1024 b + q. -/
theorem flat_apply {α : Type} (v : S8x1024x128.Idx → α) (h : S8x1024x128.ShapeCasts S8192x128) (b : Fin 8) (q : Fin 1024) (n : Fin 128) :
    shapeCast S8192x128 v h (ix2 (⟨b.val * 1024 + q.val, by omega⟩ : Fin 8192) n) = v (ix3 b q n) :=
  shapeCast_apply v h _ _ (by
    rw [Shape.rowMajor_val_two, Shape.rowMajor_val_three]
    show (b.val * 1024 + q.val) * 128 + n.val = (b.val * 1024 + q.val) * 128 + n.val
    rfl)

/-- And back. -/
theorem unflat_apply {α : Type} (v : S8192x128.Idx → α) (h : S8192x128.ShapeCasts S8x1024x128) (b : Fin 8) (q : Fin 1024) (n : Fin 128) :
    shapeCast S8x1024x128 v h (ix3 b q n) = v (ix2 (⟨b.val * 1024 + q.val, by omega⟩ : Fin 8192) n) :=
  shapeCast_apply v h _ _ (by
    rw [Shape.rowMajor_val_two, Shape.rowMajor_val_three]
    show (b.val * 1024 + q.val) * 128 + n.val = (b.val * 1024 + q.val) * 128 + n.val
    rfl)

/-- THE PRODUCT HALF: the body's second payload at (b, q, e) is the input there times the hot row of (b, q) summed against
    row e of the weights. -/
theorem pay2_apply (v0 v2 v4 : IVec S8x1024 32) (v22 : FVec Ideal S128x128 .f32) (v25 : FVec Ideal S8x1024x128 .f32)
    (b : Fin 8) (q : Fin 1024) (e : Fin 128) :
    k0_pay2 (F := Ideal) v0 v2 v4 v22 v25 (ix3 b q e)
      = v25 (ix3 b q e) * ∑ n : Fin 128, bitR (kbit (v0 (ix2 b q)) (v2 (ix2 b q)) (v4 (ix2 b q)) n.val) * v22 (ix2 e n) := by
  unfold k0_pay2
  rw [mulf_apply, unflat_apply, layer_apply]
  congr 1
  refine Finset.sum_congr rfl fun n _ => ?_
  rw [flat_apply, pay1_apply]

/-! ## The body's result on a block -/

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output block is the kernel's way on a batch of 8: the second store fills columns
    128 … 255 with the hot rows, the first columns 0 … 127 with the products. -/
theorem out0_5_eq (x0 : FVec Ideal S8x1024x128 .f32) (x1 x2 x3 : IVec S8x1024 32) (x4 : FVec Ideal S128x128 .f32) :
    out0_5 (F := Ideal) x0 x1 x2 x3 x4 = K (B := 8) x0 x1 x2 x3 x4 := by
  funext y
  unfold out0_5
  refine View.canon_apply_of_pieces (Val := Elt Ideal) (S := S8x1024x256) (e := .f32) (K (B := 8) x0 x1 x2 x3 x4) _ ?_ y (cover0_5 _ _ y)
  intro p hp x
  simp only [List.mem_cons, List.mem_singleton, List.not_mem_nil, or_false] at hp
  rcases hp with rfl | rfl
  · obtain ⟨b, q, n, rfl⟩ : ∃ (b : Fin 8) (q : Fin 1024) (n : Fin 128), x = ix3 b q n := ⟨x 0, x 1, x 2, eq_ix3 x⟩
    have hemb : r0_4.emb (ix3 b q n) = ix3 b q (⟨128 + n.val, by omega⟩ : Fin 256) := by
      funext a; apply Fin.ext
      match a with
      | ⟨0, _⟩ => show 0 + 1 * b.val = b.val; omega
      | ⟨1, _⟩ => show 0 + 1 * q.val = q.val; omega
      | ⟨2, _⟩ => show 128 + 1 * n.val = 128 + n.val; omega
    show k0_pay1 (F := Ideal) (View.ld x1 r0_0) (View.ld x2 r0_0) (View.ld x3 r0_0) (ix3 b q n) = K (B := 8) x0 x1 x2 x3 x4 (r0_4.emb (ix3 b q n))
    rw [hemb, View.ld_unit_zero (S := S8x1024) hz2, View.ld_unit_zero (S := S8x1024) hz2, View.ld_unit_zero (S := S8x1024) hz2, pay1_apply]
    show _ = Kc x0 x1 x2 x3 x4 b q (⟨128 + n.val, by omega⟩ : Fin 256)
    unfold Kc
    rw [dif_neg (by show ¬(128 + n.val < 128); omega)]
    show _ = bitR (kbit _ _ _ (128 + n.val - 128))
    rw [Nat.add_sub_cancel_left]
  · obtain ⟨b, q, e, rfl⟩ : ∃ (b : Fin 8) (q : Fin 1024) (e : Fin 128), x = ix3 b q e := ⟨x 0, x 1, x 2, eq_ix3 x⟩
    have hemb : r0_3.emb (ix3 b q e) = ix3 b q (⟨e.val, by omega⟩ : Fin 256) := by
      funext a; apply Fin.ext
      match a with
      | ⟨0, _⟩ => show 0 + 1 * b.val = b.val; omega
      | ⟨1, _⟩ => show 0 + 1 * q.val = q.val; omega
      | ⟨2, _⟩ => show 0 + 1 * e.val = e.val; omega
    show k0_pay2 (F := Ideal) (View.ld x1 r0_0) (View.ld x2 r0_0) (View.ld x3 r0_0) (View.ld x4 r0_1) (View.ld x0 r0_2) (ix3 b q e)
      = K (B := 8) x0 x1 x2 x3 x4 (r0_3.emb (ix3 b q e))
    rw [hemb, View.ld_unit_zero (S := S8x1024) hz2, View.ld_unit_zero (S := S8x1024) hz2, View.ld_unit_zero (S := S8x1024) hz2,
      View.ld_unit_zero (S := S128x128) hz2, View.ld_unit_zero (S := S8x1024x128) hz3, pay2_apply]
    show _ = Kc x0 x1 x2 x3 x4 b q (⟨e.val, by omega⟩ : Fin 256)
    unfold Kc
    rw [dif_pos (show e.val < 128 from e.isLt)]

/-! ## From blocks to the array -/

variable (m : (ℓ : Loc nD τ sig) → Buf (Elt Ideal) ℓ) (ρ : Dev nD → PrngReg)

/-- The printed index maps over the grid of 32 points: point t takes block t of the batch axis of the input, of the three
    label arrays and of the output, and the whole weight matrix. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

theorem t_lt (t : Fin cfg0.N) : t.val < 32 := lt_of_lt_of_eq t.isLt (show cfg0.N = 32 from N_0)

/-- Row b of block t is row 8 t + b of the batch. -/
def rowOf (t : Fin cfg0.N) (b : Fin 8) : Fin 256 := ⟨8 * t.val + b.val, by have := t_lt t; omega⟩

/-- The input's block at point t is rows 8 t … 8 t + 7 of the input. -/
theorem blk0_apply (c : Dev nD) (t : Fin cfg0.N) (b : Fin 8) (q : Fin 1024) (e : Fin 128) :
    (iblk m c 0 t : Vec Ideal S8x1024x128 .f32) (ix3 b q e) = (V m c main_arg0 : S256x1024x128.Idx → EReal) (ix3 (rowOf t b) q e) := by
  obtain ⟨h0, h1, h2, -⟩ := idx_facts t
  unfold iblk
  rw [View.read_apply]
  show V m c main_arg0 _ = V m c main_arg0 _
  congr 1
  funext a; apply Fin.ext
  match a with
  | ⟨0, _⟩ => show win0_0.index t 0 * 8 + 1 * b.val = 8 * t.val + b.val; rw [h0]; omega
  | ⟨1, _⟩ => show win0_0.index t 1 * 1024 + 1 * q.val = q.val; rw [h1]; omega
  | ⟨2, _⟩ => show win0_0.index t 2 * 128 + 1 * e.val = e.val; rw [h2]; omega

/-- The first label array's block. -/
theorem blk1_apply (c : Dev nD) (t : Fin cfg0.N) (b : Fin 8) (q : Fin 1024) :
    (iblk m c 1 t : Vec Ideal S8x1024 .i32) (ix2 b q) = (V m c main_arg1 : S256x1024.Idx → BitVec 32) (ix2 (rowOf t b) q) := by
  obtain ⟨-, -, -, h0, h1, -⟩ := idx_facts t
  unfold iblk
  rw [View.read_apply]
  show V m c main_arg1 _ = V m c main_arg1 _
  congr 1
  funext a; apply Fin.ext
  match a with
  | ⟨0, _⟩ => show win0_1.index t 0 * 8 + 1 * b.val = 8 * t.val + b.val; rw [h0]; omega
  | ⟨1, _⟩ => show win0_1.index t 1 * 1024 + 1 * q.val = q.val; rw [h1]; omega

/-- The second. -/
theorem blk2_apply (c : Dev nD) (t : Fin cfg0.N) (b : Fin 8) (q : Fin 1024) :
    (iblk m c 2 t : Vec Ideal S8x1024 .i32) (ix2 b q) = (V m c main_arg2 : S256x1024.Idx → BitVec 32) (ix2 (rowOf t b) q) := by
  obtain ⟨-, -, -, -, -, h0, h1, -⟩ := idx_facts t
  unfold iblk
  rw [View.read_apply]
  show V m c main_arg2 _ = V m c main_arg2 _
  congr 1
  funext a; apply Fin.ext
  match a with
  | ⟨0, _⟩ => show win0_2.index t 0 * 8 + 1 * b.val = 8 * t.val + b.val; rw [h0]; omega
  | ⟨1, _⟩ => show win0_2.index t 1 * 1024 + 1 * q.val = q.val; rw [h1]; omega

/-- The third. -/
theorem blk3_apply (c : Dev nD) (t : Fin cfg0.N) (b : Fin 8) (q : Fin 1024) :
    (iblk m c 3 t : Vec Ideal S8x1024 .i32) (ix2 b q) = (V m c main_arg3 : S256x1024.Idx → BitVec 32) (ix2 (rowOf t b) q) := by
  obtain ⟨-, -, -, -, -, -, -, h0, h1, -⟩ := idx_facts t
  unfold iblk
  rw [View.read_apply]
  show V m c main_arg3 _ = V m c main_arg3 _
  congr 1
  funext a; apply Fin.ext
  match a with
  | ⟨0, _⟩ => show win0_3.index t 0 * 8 + 1 * b.val = 8 * t.val + b.val; rw [h0]; omega
  | ⟨1, _⟩ => show win0_3.index t 1 * 1024 + 1 * q.val = q.val; rw [h1]; omega

/-- The weights' block is the weight matrix, at every point. -/
theorem blk4_eq (c : Dev nD) (t : Fin cfg0.N) :
    (iblk m c 4 t : Vec Ideal S128x128 .f32) = (V m c main_arg4 : S128x128.Idx → EReal) := by
  obtain ⟨-, -, -, -, -, -, -, -, -, h0, h1, -⟩ := idx_facts t
  funext y
  unfold iblk
  rw [View.read_apply]
  show V m c main_arg4 _ = V m c main_arg4 _
  congr 1
  funext a; apply Fin.ext
  match a with
  | ⟨0, _⟩ => show win0_4.index t 0 * 128 + 1 * (y 0).val = (y 0).val; rw [h0]; omega
  | ⟨1, _⟩ => show win0_4.index t 1 * 128 + 1 * (y 1).val = (y 1).val; rw [h1]; omega

/-- Entry (b, q, j) of the output's block at point t is entry (8 t + b, q, j) of the output. -/
theorem emb5_apply (t : Fin cfg0.N) (b : Fin 8) (q : Fin 1024) (j : Fin 256) :
    ((cfg0.win 5).blk t).view.emb (ix3 b q j) = (ix3 (rowOf t b) q j : S256x1024x256.Idx) := by
  obtain ⟨-, -, -, -, -, -, -, -, -, -, -, h0, h1, h2⟩ := idx_facts t
  funext a; apply Fin.ext
  match a with
  | ⟨0, _⟩ => show win0_5.index t 0 * 8 + 1 * b.val = 8 * t.val + b.val; rw [h0]; omega
  | ⟨1, _⟩ => show win0_5.index t 1 * 1024 + 1 * q.val = q.val; rw [h1]; omega
  | ⟨2, _⟩ => show win0_5.index t 2 * 256 + 1 * j.val = j.val; rw [h2]; omega

/-- The kernel's way on the blocks of point t is the kernel's way on the whole batch, at the block's rows. -/
theorem block_of_batch (c : Dev nD) (t : Fin cfg0.N) (b : Fin 8) (q : Fin 1024) (j : Fin 256) :
    K (B := 8) (iblk m c 0 t) (iblk m c 1 t) (iblk m c 2 t) (iblk m c 3 t) (iblk m c 4 t) (ix3 b q j)
      = K (B := 256) (V m c main_arg0) (V m c main_arg1) (V m c main_arg2) (V m c main_arg3) (V m c main_arg4) (ix3 (rowOf t b) q j) := by
  show Kc (B := 8) (iblk m c 0 t) (iblk m c 1 t) (iblk m c 2 t) (iblk m c 3 t) (iblk m c 4 t) b q j
    = Kc (B := 256) (V m c main_arg0) (V m c main_arg1) (V m c main_arg2) (V m c main_arg3) (V m c main_arg4) (rowOf t b) q j
  rw [blk4_eq m c t]
  exact Kc_of_rows (rowOf t) (V m c main_arg0) (V m c main_arg1) (V m c main_arg2) (V m c main_arg3)
    (iblk m c 0 t) (iblk m c 1 t) (iblk m c 2 t) (iblk m c 3 t) (V m c main_arg4) b q j
    (fun e => blk0_apply m c t b q e) (blk1_apply m c t b q) (blk2_apply m c t b q) (blk3_apply m c t b q)

/-- WHAT POINT t WRITES BACK is block t of the kernel's way on the whole argument arrays. -/
theorem flushed_eq (c : Dev nD) (t : Fin cfg0.N) :
    (dats m 0 c).flushed 5 t = ((cfg0.win 5).blk t).view.read (Elt Ideal)
      (K (B := 256) (V m c main_arg0) (V m c main_arg1) (V m c main_arg2) (V m c main_arg3) (V m c main_arg4)) := by
  show (cfg0.win 5).cut (grid0.coords t) ((dats m 0 c).after 5 t) = _
  rw [after0_5, out0_5_eq (iblk m c 0 t) (iblk m c 1 t) (iblk m c 2 t) (iblk m c 3 t) (iblk m c 4 t)]
  funext y
  obtain ⟨b, q, j, rfl⟩ : ∃ (b : Fin 8) (q : Fin 1024) (j : Fin 256), y = ix3 b q j := ⟨y 0, y 1, y 2, eq_ix3 y⟩
  show K (B := 8) (iblk m c 0 t) (iblk m c 1 t) (iblk m c 2 t) (iblk m c 3 t) (iblk m c 4 t) (ix3 b q j)
    = K (B := 256) (V m c main_arg0) (V m c main_arg1) (V m c main_arg2) (V m c main_arg3) (V m c main_arg4) (((cfg0.win 5).blk t).view.emb (ix3 b q j))
  rw [emb5_apply, block_of_batch]

/-- An index of the output is in point t's block iff each coordinate is in the block's range on its axis. -/
theorem mem_blk5 (t : Fin cfg0.N) (i : S256x1024x256.Idx) :
    i ∈ ((cfg0.win 5).blk t).view.set ↔ ∀ a : Fin 3, win0_5.index t a * S8x1024x256.size a ≤ (i a).val
      ∧ (i a).val < win0_5.index t a * S8x1024x256.size a + S8x1024x256.size a := by
  show i ∈ ((View.whole main_v0).slice (win0_5.rect t)).set ↔ _
  rw [View.set_slice_whole, Rect.mem_set_unit]
  exact Iff.rfl

/-- The 32 blocks tile the output: row i₀ lies in block i₀ / 8. -/
theorem cover5 (i : S256x1024x256.Idx) :
    ∃ t : Fin cfg0.N, (cfg0.win 5).flush t = true ∧ i ∈ ((cfg0.win 5).blk t).view.set := by
  have hi0 : (i 0).val < 256 := (i 0).isLt
  have hi1 : (i 1).val < 1024 := (i 1).isLt
  have hi2 : (i 2).val < 256 := (i 2).isLt
  have hN : cfg0.N = 32 := N_0
  refine ⟨⟨(i 0).val / 8, by rw [hN]; omega⟩, flush0_5 _, ?_⟩
  obtain ⟨-, -, -, -, -, -, -, -, -, -, -, h0, h1, h2⟩ := idx_facts ⟨(i 0).val / 8, by rw [hN]; omega⟩
  rw [mem_blk5]
  intro a
  match a with
  | ⟨0, _⟩ =>
    show win0_5.index _ 0 * 8 ≤ (i 0).val ∧ (i 0).val < win0_5.index _ 0 * 8 + 8
    rw [h0]; show (i 0).val / 8 * 8 ≤ (i 0).val ∧ (i 0).val < (i 0).val / 8 * 8 + 8; omega
  | ⟨1, _⟩ =>
    show win0_5.index _ 1 * 1024 ≤ (i 1).val ∧ (i 1).val < win0_5.index _ 1 * 1024 + 1024
    rw [h1]; omega
  | ⟨2, _⟩ =>
    show win0_5.index _ 2 * 256 ≤ (i 2).val ∧ (i 2).val < win0_5.index _ 2 * 256 + 256
    rw [h2]; omega

/-- THE OUTPUT after the run is the kernel's way on the whole argument arrays. -/
theorem final5 (c : Dev nD) : (dats m 0 c).arrAt 5 cfg0.N
    = K (B := 256) (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 _ (fun t _ => flushed_eq m c t) cover5

end Cert.KernelIdeal.Hand

end
-- ==== Proof.RefValue.lean ====
/-
  What the reference computes, read at an index.

  The reference lays the three one-hot codes side by side (columns 0 … 31 the code of r, 32 … 63 that of s, 64 … 127 that
  of p), looks up rows r, 32 + s and 64 + p of the transposed weights — jnp's indexing: a negative index counts from the
  end, and the gather clamps into the table —, adds the three rows, multiplies by the input, and lays the product and the
  codes side by side.  With the labels in their bins no index is negative or clamped, row k of the transposed weights
  read at column e is the weight matrix at (e, k), and each column of the code block is the hot row at that column.
-/
import proofs.«422377_j11038065951535_2_alg».proof.Proof.Gen.ReferenceIdeal.Read
import proofs.«422377_j11038065951535_2_alg».proof.Proof.Spec
import Idealize.ShloMosaic.Lib.Pipeline.Value
import Idealize.ShloMosaic.Lib.ValueIdx

noncomputable section

namespace Cert.ReferenceIdeal.Hand

open Cert.ReferenceIdeal Cert.ReferenceIdeal.Gen Cert.ReferenceIdeal.Read
open Idealize.ShloMosaic Idealize.ShloMosaic.ValueIdx
open Cert.Bins

/-! ## A whole-row lookup in the table of 128 rows -/

/-- The gather at (b, q, e): the table at the row the start index of (b, q) names — read signed and clamped into
    [0, 127] —, column e. -/
theorem take_row {α : Type} (T : S128x128.Idx → α) (idx : IVec S256x1024x1 32) (b : Fin 256) (q : Fin 1024) (e : Fin 128) :
    Host.gather gather_S128x128_S256x1024x1_S256x1024x128_2_0_n_n_0_2_1128 T idx (ix3 b q e)
      = T (ix2 (⟨min (idx (ix3 b q (0 : Fin 1))).toInt.toNat (128 - 1), by omega⟩ : Fin 128) e) := by
  unfold Host.gather
  congr 1
  funext a
  refine Fin.ext ?_
  match a with
  | ⟨0, _⟩ =>
    show gather_S128x128_S256x1024x1_S256x1024x128_2_0_n_n_0_2_1128.start (ix3 b q e) idx 0
      + gather_S128x128_S256x1024x1_S256x1024x128_2_0_n_n_0_2_1128.batchCoord (ix3 b q e) 0
      + gather_S128x128_S256x1024x1_S256x1024x128_2_0_n_n_0_2_1128.offCoord (ix3 b q e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S128x128_S256x1024x1_S256x1024x128_2_0_n_n_0_2_1128.startIndexMap from List.mem_singleton.mpr rfl)]
    have hsi : gather_S128x128_S256x1024x1_S256x1024x128_2_0_n_n_0_2_1128.siIdx (ix3 b q e)
        ⟨List.idxOf (0 : Fin 2) gather_S128x128_S256x1024x1_S256x1024x128_2_0_n_n_0_2_1128.startIndexMap,
          List.idxOf_lt_length_iff.2 (List.mem_singleton.mpr rfl)⟩ = ix3 b q (0 : Fin 1) := by
      funext c; refine Fin.ext ?_
      match c with
      | ⟨0, _⟩ => rfl
      | ⟨1, _⟩ => rfl
      | ⟨2, _⟩ => rfl
    rw [hsi]
    rfl
  | ⟨1, _⟩ =>
    show gather_S128x128_S256x1024x1_S256x1024x128_2_0_n_n_0_2_1128.start (ix3 b q e) idx 1
      + gather_S128x128_S256x1024x1_S256x1024x128_2_0_n_n_0_2_1128.batchCoord (ix3 b q e) 1
      + gather_S128x128_S256x1024x1_S256x1024x128_2_0_n_n_0_2_1128.offCoord (ix3 b q e) 1 = e.val
    rw [GatherDims.batchCoord_eq_zero _ _ _ List.not_mem_nil]
    unfold GatherDims.start
    rw [dif_neg (show ¬(1 : Fin 2) ∈ gather_S128x128_S256x1024x1_S256x1024x128_2_0_n_n_0_2_1128.startIndexMap by decide)]
    unfold GatherDims.offCoord
    rw [dif_pos (show (1 : Fin 2) ∈ gather_S128x128_S256x1024x1_S256x1024x128_2_0_n_n_0_2_1128.sKept by decide)]
    have key : ∀ k : Fin S256x1024x128.rank, k = 2 → 0 + 0 + ((ix3 b q e) k).val = e.val := fun k hk => by
      subst hk; show 0 + 0 + e.val = e.val; omega
    exact key _ (by decide)

/-- Row k of the transposed weights at column e is the weight matrix at (e, k). -/
theorem transposed_apply (x4 : FVec Ideal S128x128 .f32) (k e : Fin 128) :
    val_main_v4 (F := Ideal) x4 (ix2 k e) = x4 (ix2 e k) := by
  rw [val_main_v4_apply]
  congr 1
  funext a
  match a with
  | ⟨0, _⟩ => rfl
  | ⟨1, _⟩ => rfl

variable (x0 : FVec Ideal S256x1024x128 .f32) (x1 x2 x3 : IVec S256x1024 32) (x4 : FVec Ideal S128x128 .f32)

/-- The first lookup: row r of the transposed weights. -/
theorem lookup_r (b : Fin 256) (q : Fin 1024) (e : Fin 128) (hr : (x1 (ix2 b q)).toNat < 32) :
    val_main_v11 (F := Ideal) x1 x4 (ix3 b q e) = x4 (ix2 e (col (x1 (ix2 b q)).toNat)) := by
  unfold val_main_v11
  rw [take_row, transposed_apply]
  congr 2
  apply Fin.ext
  show min (val_main_v10 (F := Ideal) x1 (ix3 b q (0 : Fin 1))).toInt.toNat (128 - 1) = (col (x1 (ix2 b q)).toNat).val
  rw [val_main_v10_apply, val_main_v9_apply, val_main_v6_apply, val_main_v8_apply, val_main_v5_apply, val_main_c_apply,
    val_main_v7_apply, val_main_c_0_apply, col_val (by omega),
    show idx_main_v10 (ix3 b q (0 : Fin 1)) = ix2 b q from funext fun a => match a with | ⟨0, _⟩ => rfl | ⟨1, _⟩ => rfl]
  exact take_index (x1 (ix2 b q)) (by omega)

/-- The second: row 32 + s. -/
theorem lookup_s (b : Fin 256) (q : Fin 1024) (e : Fin 128) (hs : (x2 (ix2 b q)).toNat < 32) :
    val_main_v20 (F := Ideal) x2 x4 (ix3 b q e) = x4 (ix2 e (col (32 + (x2 (ix2 b q)).toNat))) := by
  unfold val_main_v20
  rw [take_row, transposed_apply]
  congr 2
  apply Fin.ext
  show min (val_main_v19 (F := Ideal) x2 (ix3 b q (0 : Fin 1))).toInt.toNat (128 - 1) = (col (32 + (x2 (ix2 b q)).toNat)).val
  rw [val_main_v19_apply, val_main_v18_apply, val_main_v15_apply, val_main_v17_apply, val_main_v13_apply, val_main_v12_apply,
    val_main_c_1_apply, val_main_v14_apply, val_main_c_2_apply, val_main_v16_apply, val_main_c_3_apply, col_val (by omega),
    show idx_main_v19 (ix3 b q (0 : Fin 1)) = ix2 b q from funext fun a => match a with | ⟨0, _⟩ => rfl | ⟨1, _⟩ => rfl,
    ← toNat_addi 32 (by norm_num) (x2 (ix2 b q)) (by omega)]
  exact take_index (IntOp.addi 32#32 (x2 (ix2 b q))) (by rw [toNat_addi 32 (by norm_num) _ (by omega)]; omega)

/-- The third: row 64 + p. -/
theorem lookup_p (b : Fin 256) (q : Fin 1024) (e : Fin 128) (hp : (x3 (ix2 b q)).toNat < 64) :
    val_main_v30 (F := Ideal) x3 x4 (ix3 b q e) = x4 (ix2 e (col (64 + (x3 (ix2 b q)).toNat))) := by
  unfold val_main_v30
  rw [take_row, transposed_apply]
  congr 2
  apply Fin.ext
  show min (val_main_v29 (F := Ideal) x3 (ix3 b q (0 : Fin 1))).toInt.toNat (128 - 1) = (col (64 + (x3 (ix2 b q)).toNat)).val
  rw [val_main_v29_apply, val_main_v28_apply, val_main_v25_apply, val_main_v27_apply, val_main_v23_apply, val_main_v22_apply,
    val_main_c_4_apply, val_main_v24_apply, val_main_c_5_apply, val_main_v26_apply, val_main_c_6_apply, col_val (by omega),
    show idx_main_v29 (ix3 b q (0 : Fin 1)) = ix2 b q from funext fun a => match a with | ⟨0, _⟩ => rfl | ⟨1, _⟩ => rfl,
    ← toNat_addi 64 (by norm_num) (x3 (ix2 b q)) (by omega)]
  exact take_index (IntOp.addi 64#32 (x3 (ix2 b q))) (by rw [toNat_addi 64 (by norm_num) _ (by omega)]; omega)

/-! ## The three one-hot codes -/

/-- The code of r at column n < 32: r compared with n. -/
theorem code_r (b : Fin 256) (q : Fin 1024) (n : Fin 32) :
    val_main_v0 (F := Ideal) x1 (ix3 b q n) = bitR (IntOp.cmpi .eq (x1 (ix2 b q)) (BitVec.ofNat 32 n.val)) := by
  rw [val_main_v0_apply, val_main_call0_v4_apply, val_main_call0_v2_apply, val_main_call0_v0_apply,
    val_main_call0_v3_apply, val_main_call0_v1_apply,
    show idx_main_call0_v0 (idx_main_call0_v2 (ix3 b q n)) = ix2 b q from funext fun a => match a with | ⟨0, _⟩ => rfl | ⟨1, _⟩ => rfl]
  rfl

/-- The code of s at column n < 32. -/
theorem code_s (b : Fin 256) (q : Fin 1024) (n : Fin 32) :
    val_main_v1 (F := Ideal) x2 (ix3 b q n) = bitR (IntOp.cmpi .eq (x2 (ix2 b q)) (BitVec.ofNat 32 n.val)) := by
  rw [val_main_v1_apply, val_main_call1_v4_apply, val_main_call1_v2_apply, val_main_call1_v0_apply,
    val_main_call1_v3_apply, val_main_call1_v1_apply,
    show idx_main_call1_v0 (idx_main_call1_v2 (ix3 b q n)) = ix2 b q from funext fun a => match a with | ⟨0, _⟩ => rfl | ⟨1, _⟩ => rfl]
  rfl

/-- The code of p at column n < 64. -/
theorem code_p (b : Fin 256) (q : Fin 1024) (n : Fin 64) :
    val_main_v2 (F := Ideal) x3 (ix3 b q n) = bitR (IntOp.cmpi .eq (x3 (ix2 b q)) (BitVec.ofNat 32 n.val)) := by
  rw [val_main_v2_apply, val_main_call2_v4_apply, val_main_call2_v2_apply, val_main_call2_v0_apply,
    val_main_call2_v3_apply, val_main_call2_v1_apply,
    show idx_main_call2_v0 (idx_main_call2_v2 (ix3 b q n)) = ix2 b q from funext fun a => match a with | ⟨0, _⟩ => rfl | ⟨1, _⟩ => rfl]
  rfl

/-- The three codes side by side are the hot row. -/
theorem codes_apply (b : Fin 256) (q : Fin 1024) (n : Fin 128)
    (hr : (x1 (ix2 b q)).toNat < 32) (hs : (x2 (ix2 b q)).toNat < 32) (hp : (x3 (ix2 b q)).toNat < 64) :
    val_main_v3 (F := Ideal) x1 x2 x3 (ix3 b q n) = hot (x1 (ix2 b q)) (x2 (ix2 b q)) (x3 (ix2 b q)) n.val := by
  unfold val_main_v3
  by_cases h1 : n.val < 32
  · rw [concatenate_apply_piece 2 _ _ (ix3 b q n) 0 (by simp) S256x1024x32 (val_main_v0 (F := Ideal) x1) rfl rfl 0 rfl
      (ix3 b q (⟨n.val, h1⟩ : Fin 32)) (fun c hc => match c with
        | ⟨0, _⟩ => rfl
        | ⟨1, _⟩ => rfl
        | ⟨2, _⟩ => absurd rfl hc) (by show 0 + n.val = n.val; omega)]
    rw [code_r]
    exact ref_bit_r _ _ _ hs hp n.val h1
  · by_cases h2 : n.val < 64
    · rw [concatenate_apply_piece 2 _ _ (ix3 b q n) 1 (by simp) S256x1024x32 (val_main_v1 (F := Ideal) x2) rfl rfl 32 rfl
        (ix3 b q (⟨n.val - 32, by omega⟩ : Fin 32)) (fun c hc => match c with
          | ⟨0, _⟩ => rfl
          | ⟨1, _⟩ => rfl
          | ⟨2, _⟩ => absurd rfl hc) (by show 32 + (n.val - 32) = n.val; omega)]
      rw [code_s]
      have := ref_bit_s (x1 (ix2 b q)) (x2 (ix2 b q)) (x3 (ix2 b q)) hr hp (n.val - 32) (by omega)
      rw [show 32 + (n.val - 32) = n.val by omega] at this
      exact this
    · rw [concatenate_apply_piece 2 _ _ (ix3 b q n) 2 (by simp) S256x1024x64 (val_main_v2 (F := Ideal) x3) rfl rfl 64 rfl
        (ix3 b q (⟨n.val - 64, by have := n.isLt; omega⟩ : Fin 64)) (fun c hc => match c with
          | ⟨0, _⟩ => rfl
          | ⟨1, _⟩ => rfl
          | ⟨2, _⟩ => absurd rfl hc) (by show 64 + (n.val - 64) = n.val; omega)]
      rw [code_p]
      have := ref_bit_p (x1 (ix2 b q)) (x2 (ix2 b q)) (x3 (ix2 b q)) hr hs (n.val - 64) (by have := n.isLt; omega)
      rw [show 64 + (n.val - 64) = n.val by omega] at this
      exact this

/-! ## The result -/

/-- THE REFERENCE'S RESULT at (b, q, j), the labels of row (b, q) in their bins. -/
theorem result_apply (b : Fin 256) (q : Fin 1024) (j : Fin 256)
    (hr : (x1 (ix2 b q)).toNat < 32) (hs : (x2 (ix2 b q)).toNat < 32) (hp : (x3 (ix2 b q)).toNat < 64) :
    val_main_v33 (F := Ideal) x0 x1 x2 x3 x4 (ix3 b q j) = Gc (B := 256) x0 x1 x2 x3 x4 b q j := by
  unfold val_main_v33 Gc
  by_cases h : j.val < 128
  · rw [dif_pos h, concatenate_pair_apply_left (s₁ := S256x1024x128) (s₂ := S256x1024x128) 2 _ _ _ (ix3 b q j) rfl (ix3 b q (⟨j.val, h⟩ : Fin 128)) (fun c => match c with
      | ⟨0, _⟩ => rfl
      | ⟨1, _⟩ => rfl
      | ⟨2, _⟩ => rfl)]
    rw [val_main_v32_apply, val_main_v31_apply, val_main_v21_apply, lookup_r x1 x4 b q _ hr, lookup_s x2 x4 b q _ hs,
      lookup_p x3 x4 b q _ hp]
    rfl
  · rw [dif_neg h, concatenate_pair_apply_right (s₁ := S256x1024x128) (s₂ := S256x1024x128) 2 _ _ _ (ix3 b q j) rfl rfl (ix3 b q (⟨j.val - 128, by have := j.isLt; omega⟩ : Fin 128))
      (fun c hc => match c with
        | ⟨0, _⟩ => rfl
        | ⟨1, _⟩ => rfl
        | ⟨2, _⟩ => absurd rfl hc) (by show (j.val - 128) + 128 = j.val; omega)]
    exact codes_apply x1 x2 x3 b q _ hr hs hp

/-- As arrays, when every row's labels are in their bins. -/
theorem result_eq (H : ∀ i, (x1 i).toNat < 32 ∧ (x2 i).toNat < 32 ∧ (x3 i).toNat < 64) :
    val_main_v33 (F := Ideal) x0 x1 x2 x3 x4 = G (B := 256) x0 x1 x2 x3 x4 := by
  funext i
  obtain ⟨b, q, j, rfl⟩ : ∃ (b : Fin 256) (q : Fin 1024) (j : Fin 256), i = ix3 b q j := ⟨i 0, i 1, i 2, eq_ix3 i⟩
  exact result_apply x0 x1 x2 x3 x4 b q j (H _).1 (H _).2.1 (H _).2.2

end Cert.ReferenceIdeal.Hand

end
-- ==== Proof.lean ====
/-
  A block-pipelined kernel against its jnp reference, over the extended reals.

  Inputs: vt : [256, 1024, 128] floats; three label arrays rgap, sgap, pcount : [256, 1024] 32-bit integers with
  0 ≤ rgap < 32, 0 ≤ sgap < 32, 0 ≤ pcount < 64 (the bins of the three one-hot codes); W : [128, 128] floats.
  Result: [256, 1024, 256]; at row (b, q), with r, s, p that row's labels,
    columns e < 128:      vt[b, q, e] · (W[e, r] + W[e, 32 + s] + W[e, 64 + p]),
    columns 128 + n:      1 if n ∈ {r, 32 + s, 64 + p}, else 0        (the three one-hot codes side by side).

  The kernel walks the batch axis in 32 blocks of 8. On a block it builds the hot row of every (b, q) by comparing the
  column index with r, 32 + s and 64 + p at once and or-ing the three bits, multiplies the [8192, 128] matrix of hot
  rows with W contracted along both second axes, multiplies by the input block, and stores the two halves side by side
  (Proof/KernelValue.lean: the body on a block; the blocks tile the output).  The reference concatenates the three codes,
  gathers rows r, 32 + s, 64 + p of the transposed W, adds them and multiplies by vt (Proof/RefValue.lean).  The two agree
  because the bins [0, 32), [32, 64), [64, 128) are disjoint — so the or of the three comparisons is the concatenated
  code — and because a sum against an indicator of three distinct columns is the sum of the three entries, which holds
  in the extended reals without any finiteness (Proof/Spec.lean).  The label ranges come from the precondition
  (Proof/PreDecode.lean); outside them the two programs differ (a label rgap = 40 lights column 40 in the kernel's
  row and none in the reference's code).
-/
import proofs.«422377_j11038065951535_2_alg».proof.Defs
import proofs.«422377_j11038065951535_2_alg».proof.Proof.Gen.Kernel
import proofs.«422377_j11038065951535_2_alg».proof.Proof.Gen.Kernel.Skeleton
import proofs.«422377_j11038065951535_2_alg».proof.Proof.Gen.Kernel.Launch
import proofs.«422377_j11038065951535_2_alg».proof.Proof.Gen.Kernel.Points
import proofs.«422377_j11038065951535_2_alg».proof.Proof.Gen.Kernel.Frame
import proofs.«422377_j11038065951535_2_alg».proof.Proof.Gen.KernelIdeal
import proofs.«422377_j11038065951535_2_alg».proof.Proof.Gen.KernelIdeal.Skeleton
import proofs.«422377_j11038065951535_2_alg».proof.Proof.Gen.KernelIdeal.Launch
import proofs.«422377_j11038065951535_2_alg».proof.Proof.Gen.KernelIdeal.Points
import proofs.«422377_j11038065951535_2_alg».proof.Proof.Gen.KernelIdeal.Frame
import proofs.«422377_j11038065951535_2_alg».proof.Proof.Gen.ReferenceIdeal
import proofs.«422377_j11038065951535_2_alg».proof.Proof.Gen.Pre_finite_inputs
import proofs.«422377_j11038065951535_2_alg».proof.Proof.Gen.KernelIdeal.Value
import proofs.«422377_j11038065951535_2_alg».proof.Proof.Gen.ReferenceIdeal.Run
import proofs.«422377_j11038065951535_2_alg».proof.Proof.Gen.ReferenceIdeal.Read
import proofs.«422377_j11038065951535_2_alg».proof.Proof.Spec
import proofs.«422377_j11038065951535_2_alg».proof.Proof.PreDecode
import proofs.«422377_j11038065951535_2_alg».proof.Proof.KernelValue
import proofs.«422377_j11038065951535_2_alg».proof.Proof.RefValue
import Idealize.ShloMosaic.Adequacy
import Idealize.ShloMosaic.Init

noncomputable section

namespace Cert.Proof

open Idealize.ShloMosaic Idealize.SL.Sem

/-- The word-level kernel runs and leaves its arguments alone. -/
theorem frame_k : Cert.frame_Kernel := fun m ρ _ => Cert.Kernel.Gen.frame m ρ

/-- So does the kernel at the ideal values. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the result `Cert.Bins.G` of the argument arrays: the kernel's output is the kernel's way on the
    whole arrays (the blocks tile it), the reference's the composed term of its operations, and with every label in its
    bin both are `G`. -/
theorem algebraic : Cert.algebraic_KernelIdeal_ReferenceIdeal := by
  intro m ρ m' ρ' hpre hagree
  have H : ∀ (c : Dev Cert.KernelIdeal.nD) (i : Cert.Pre_finite_inputs.S256x1024.Idx),
      (m ((c.tc : Thread Cert.KernelIdeal.nD Cert.KernelIdeal.τ).loc Cert.KernelIdeal.main_arg1) i).toNat < 32
      ∧ (m ((c.tc : Thread Cert.KernelIdeal.nD Cert.KernelIdeal.τ).loc Cert.KernelIdeal.main_arg2) i).toNat < 32
      ∧ (m ((c.tc : Thread Cert.KernelIdeal.nD Cert.KernelIdeal.τ).loc Cert.KernelIdeal.main_arg3) i).toNat < 64 :=
    fun c i => Cert.Pre_finite_inputs.Decode.labels_in_range _ _ _ _ _ (hpre c) i
  refine ⟨fun c => Cert.Bins.G (B := 256)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩)
      (Cert.KernelIdeal.Value.run_blocks (F := Ideal) m ρ)
    rw [Cert.KernelIdeal.Hand.final5 m c]
    exact Cert.Bins.K_eq_G _ _ _ _ _ (H c)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v33_eq, (hagree c).1, (hagree c).2.1, (hagree c).2.2.1, (hagree c).2.2.2.1,
      (hagree c).2.2.2.2]
    exact Cert.ReferenceIdeal.Hand.result_eq _ _ _ _ _ (H c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
